-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x32 : Shape := ⟨2, ![800000, 32]⟩
abbrev S128x160 : Shape := ⟨2, ![128, 160]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S128x160 : S_.BroadcastsInDim S128x160 (![] : Fin 0 → Fin S128x160.rank)
  reducesTo_S128x160_S_d0_1 : S128x160.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg8 : FVec F S384 .f32) (main_arg9 : FVec F S384x128 .f32) (main_arg10 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384x128 .f32 := Host.absf main_arg9
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384 .f32 := Host.absf main_arg10
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S384x128 .f32) (main_arg8 : FVec F S384 .f32) (main_arg9 : FVec F S384x128 .f32) (main_arg10 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000x32 .f32) (main_arg3 : FVec F S128x160 .f32) (main_arg4 : FVec F S128 .f32) (main_arg5 : FVec F S128x128 .f32) (main_arg6 : FVec F S128 .f32) (main_arg7 : FVec F S384x128 .f32) (main_arg8 : FVec F S384 .f32) (main_arg9 : FVec F S384x128 .f32) (main_arg10 : FVec F S384 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S128x160 .f32 := Host.absf main_arg3
  let main_cst_2 : FVec F S_ .f32 := constant S_ .f32 0x7F800000#32
  let main_v10 : FVec F S128x160 .f32 := broadcastInDim S128x160 ![] bcast_S_S128x160 main_cst_2
  let main_v11 : IVec S128x160 1 := cmpf .olt main_v9 main_v10
  let main_c_3 : IVec S_ 1 := constantI S_ 1 1#1
  let main_v12 : IVec S_ 1 := (fun x v => Host.reduce IntOp.andi x v reducesTo_S128x160_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x32 : Shape := ⟨2, ![800000, 32]⟩
abbrev S128x160 : Shape := ⟨2, ![128, 160]⟩
abbrev S128 : Shape := ⟨1, ![128]⟩
abbrev S128x128 : Shape := ⟨2, ![128, 128]⟩
abbrev S384x128 : Shape := ⟨2, ![384, 128]⟩
abbrev S384 : Shape := ⟨1, ![384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x32 : Shape := ⟨2, ![128, 32]⟩
abbrev S32x128 : Shape := ⟨2, ![32, 128]⟩
abbrev S1x128 : Shape := ⟨2, ![1, 128]⟩
abbrev S8000x128 : Shape := ⟨2, ![8000, 128]⟩
abbrev S8000x32 : Shape := ⟨2, ![8000, 32]⟩
abbrev S128x384 : Shape := ⟨2, ![128, 384]⟩
abbrev S1x384 : Shape := ⟨2, ![1, 384]⟩
abbrev S2000x128 : Shape := ⟨2, ![2000, 128]⟩
abbrev S2000x384 : Shape := ⟨2, ![2000, 384]⟩

abbrev nBuf : Space → Nat
  | .hbm => 41
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S128x160, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384, .f32⟩
  | .hbm, ⟨9, _⟩ => ⟨S384x128, .f32⟩
  | .hbm, ⟨10, _⟩ => ⟨S384, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S128x128, .f32⟩
  | .hbm, ⟨25, _⟩ => ⟨S128x128, .f32⟩
  | .hbm, ⟨26, _⟩ => ⟨S128x32, .f32⟩
  | .hbm, ⟨27, _⟩ => ⟨S32x128, .f32⟩
  | .hbm, ⟨28, _⟩ => ⟨S128x128, .f32⟩
  | .hbm, ⟨29, _⟩ => ⟨S1x128, .f32⟩
  | .hbm, ⟨30, _⟩ => ⟨S1x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x384, .f32⟩
  | .hbm, ⟨37, _⟩ => ⟨S128x384, .f32⟩
  | .hbm, ⟨38, _⟩ => ⟨S1x384, .f32⟩
  | .hbm, ⟨39, _⟩ => ⟨S1x384, .f32⟩
  | .hbm, ⟨40, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x32, .f32⟩
  | .local _ .vmem, ⟨3, _⟩ => ⟨S8000x32, .f32⟩
  | .local _ .vmem, ⟨4, _⟩ => ⟨S128x128, .f32⟩
  | .local _ .vmem, ⟨5, _⟩ => ⟨S32x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S8000x128, .f32⟩
  | .local _ .vmem, ⟨10, _⟩ => ⟨S8000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x384, .f32⟩
  | .local _ .vmem, ⟨16, _⟩ => ⟨S128x384, .f32⟩
  | .local _ .vmem, ⟨17, _⟩ => ⟨S1x384, .f32⟩
  | .local _ .vmem, ⟨18, _⟩ => ⟨S1x384, .f32⟩
  | .local _ .vmem, ⟨19, _⟩ => ⟨S2000x128, .f32⟩
  | .local _ .vmem, ⟨20, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S128x160_S128x128_0_0 : S128x160.Slices ![0, 0] S128x128
  transposes_S128x128_S128x128_1_0 : S128x128.Transposes [1, 0] S128x128
  slices_S128x160_S128x32_0_128 : S128x160.Slices ![0, 128] S128x32
  transposes_S128x32_S32x128_1_0 : S128x32.Transposes [1, 0] S32x128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  bcast_S_S50000x128 : S_.BroadcastsInDim S50000x128 (![] : Fin 0 → Fin S50000x128.rank)
  transposes_S384x128_S128x384_1_0 : S384x128.Transposes [1, 0] S128x384
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  gather_S50000x128_S800000x1_S800000x128_1_0_n_n_0_1_1128_wf : GatherDims.WF S50000x128 S800000x1 S800000x128 [1] [0] [] [0] [] 1 ![1, 128]
  dot_S8000x128_S128x128_S8000x128_1_0_0_1_n_n_wf : DotDims.WF S8000x128 S128x128 S8000x128 [1] [0] [0] [1] [] []
  dot_S8000x32_S32x128_S8000x128_1_0_0_1_n_n_wf : DotDims.WF S8000x32 S32x128 S8000x128 [1] [0] [0] [1] [] []
  scatter_S50000x128_S800000x1_S800000x128_1_0_0_1_wf : ScatterDims.WF S50000x128 S800000x1 S800000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S800000x32.size a
  hwx0_1 : ∀ i : grid0.Coords, EltTy.bits .f32 = 32 ∨ (Rect.block (s := S800000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S800000x128.size a
  hwx0_7 : ∀ i : grid0.Coords, EltTy.bits .f32 = 32 ∨ (Rect.block (s := S800000x128) S8000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S8000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x32 : Shape := ⟨2, ![800000, 32]⟩
abbrev S128x160 : Shape := ⟨2, ![128, 160]⟩
abbrev S128 : Shape := ⟨1, ![128]⟩
abbrev S128x128 : Shape := ⟨2, ![128, 128]⟩
abbrev S384x128 : Shape := ⟨2, ![384, 128]⟩
abbrev S384 : Shape := ⟨1, ![384]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x160 : Shape := ⟨2, ![800000, 160]⟩
abbrev S160x128 : Shape := ⟨2, ![160, 128]⟩
abbrev S1x128 : Shape := ⟨2, ![1, 128]⟩
abbrev S128x384 : Shape := ⟨2, ![128, 384]⟩
abbrev S50000x384 : Shape := ⟨2, ![50000, 384]⟩
abbrev S1x384 : Shape := ⟨2, ![1, 384]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x32, .f32⟩
  | .hbm, ⟨3, _⟩ => ⟨S128x160, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384, .f32⟩
  | .hbm, ⟨9, _⟩ => ⟨S384x128, .f32⟩
  | .hbm, ⟨10, _⟩ => ⟨S384, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x160, .f32⟩
  | .hbm, ⟨25, _⟩ => ⟨S160x128, .f32⟩
  | .hbm, ⟨26, _⟩ => ⟨S800000x128, .f32⟩
  | .hbm, ⟨27, _⟩ => ⟨S1x128, .f32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S128x128, .f32⟩
  | .hbm, ⟨40, _⟩ => ⟨S800000x128, .f32⟩
  | .hbm, ⟨41, _⟩ => ⟨S1x128, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S800000x128, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S128x384, .f32⟩
  | .hbm, ⟨58, _⟩ => ⟨S50000x384, .f32⟩
  | .hbm, ⟨59, _⟩ => ⟨S1x384, .f32⟩
  | .hbm, ⟨60, _⟩ => ⟨S50000x384, .f32⟩
  | .hbm, ⟨61, _⟩ => ⟨S50000x384, .f32⟩
  | .hbm, ⟨62, _⟩ => ⟨S128x384, .f32⟩
  | .hbm, ⟨63, _⟩ => ⟨S50000x384, .f32⟩
  | .hbm, ⟨64, _⟩ => ⟨S1x384, .f32⟩
  | .hbm, ⟨65, _⟩ => ⟨S50000x384, .f32⟩
  | .hbm, ⟨66, _⟩ => ⟨S50000x384, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S_, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v23 : Ref sig .tc := ⟨.hbm, 52, rfl⟩
abbrev main_cst : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_1 : Ref sig .tc := ⟨.hbm, 76, rfl⟩
abbrev main_v46 : Ref sig .tc := ⟨.hbm, 77, rfl⟩
abbrev main_v47 : Ref sig .tc := ⟨.hbm, 78, rfl⟩
abbrev main_cst_2 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_3 : Ref sig .tc := ⟨.hbm, 85, rfl⟩
abbrev main_v53 : Ref sig .tc := ⟨.hbm, 86, rfl⟩
abbrev main_v54 : Ref sig .tc := ⟨.hbm, 87, rfl⟩
abbrev main_cst_4 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_5 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x32_S800000x160_d1 : Shape.Concatenates [S800000x128, S800000x32] S800000x160 1
  transposes_S128x160_S160x128_1_0 : S128x160.Transposes [1, 0] S160x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x128_S128x128_1_0 : S128x128.Transposes [1, 0] S128x128
  bcast_S_S50000x128 : S_.BroadcastsInDim S50000x128 (![] : Fin 0 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  gather_S50000x128_S800000x1_S800000x128_1_0_n_n_0_1_1128_wf : GatherDims.WF S50000x128 S800000x1 S800000x128 [1] [0] [] [0] [] 1 ![1, 128]
  dot_S800000x160_S160x128_S800000x128_1_0_0_1_n_n_wf : DotDims.WF S800000x160 S160x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x160_S160x128_S800000x128_1_0_0_1_n_n : DotDims S800000x160 S160x128 S800000x128 where
  lhsContracting := [1]
  rhsContracting := [0]
  lhsNonContracting := [0]
  rhsNonContracting := [1]
  lhsBatch := []
  rhsBatch := []
  wf := dot_S800000x160_S160x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.Spec.lean ====
/-
  One message-passing layer with a gated recurrent node update, on the extended reals, written row by row.

  An edge e with source row xr (128 features of the gathered node) and attribute row er (32 features) sends the message
      msg = silu (W2 · silu (W1a · xr + W1b · er + b1) + b2),        silu t = t · σ(t),  σ(t) = 1 / (1 + e^(-t)),
  where the first layer's weight is given in two column blocks (the node block and the attribute block) and every weight
  is held "contraction axis first" (w k q multiplies input feature k into output feature q).
  A node with aggregated message row ar and state row xr is updated by the gated recurrent cell
      r = σ(gi₀ + gh₀),  z = σ(gi₁ + gh₁),  n = tanh(gi₂ + r · gh₂),  new = (1 - z) · n + z · xr,
  with gi = ar · Wih + bih and gh = xr · Whh + bhh, each 384 wide and read in three blocks of 128 columns.

  Both programs compute exactly these expressions; they differ only in how the first layer's contraction is grouped:
  over all 160 concatenated features at once, or over the 128 node features and the 32 attribute features separately.
  A finite sum in a commutative monoid may be split that way (`sum_split`), so no finiteness is needed anywhere.
-/
import Idealize.ShloMosaic.PureOps.Ideal.Laws
import Idealize.ShloMosaic.Lib.ValueIdx

noncomputable section

open scoped BigOperators

namespace Cert.GnnSpec

open Idealize.ShloMosaic Idealize.ShloMosaic.ValueIdx

/-- An R × C array of extended reals, indexed as the programs index their rank-2 arrays. -/
abbrev Mat (R C : Nat) : Type := (⟨2, ![R, C]⟩ : Shape).Idx → EReal

/-- The float word of 1.0, kept as a word: both programs subtract the update gate from this same word. -/
abbrev one : EReal := Ideal.ofBits .f32 0x3F800000#32

/-- That word denotes the real number 1. -/
theorem one_eq : one = 1 := by
  simp [one, Ideal.ofBits, Ideal.ieee, -EReal.coe_mul]; norm_num

/-- The logistic function written out with the word of 1.0 for both of its ones, as a host program spells it. -/
theorem logistic_spelled (t : EReal) : Ideal.div one (one + Ideal.exp (-t)) = Ideal.logistic t := by
  rw [one_eq]; rfl

/-- silu t = t · σ(t). -/
def silu (t : EReal) : EReal := t * Ideal.logistic t

/-! ## Column blocks -/

/-- Column i of the node block, as a column of the 160 concatenated features. -/
def colA (i : Fin 128) : Fin 160 := ⟨i.val, by have := i.isLt; omega⟩
/-- Column i of the attribute block, as a column of the 160 concatenated features. -/
def colB (i : Fin 32) : Fin 160 := ⟨128 + i.val, by have := i.isLt; omega⟩

/-- A sum over the 160 concatenated features is the sum over the node block plus the sum over the attribute block. -/
theorem sum_split (f : Fin 160 → EReal) :
    ∑ k : Fin 160, f k = (∑ i : Fin 128, f (colA i)) + ∑ i : Fin 32, f (colB i) :=
  Fin.sum_univ_add (a := 128) (b := 32) f

/-- Column q of gate block 0 (reset), 1 (update), 2 (candidate) among the 384 gate columns. -/
def gate0 (q : Fin 128) : Fin 384 := ⟨q.val, by have := q.isLt; omega⟩
def gate1 (q : Fin 128) : Fin 384 := ⟨128 + q.val, by have := q.isLt; omega⟩
def gate2 (q : Fin 128) : Fin 384 := ⟨256 + q.val, by have := q.isLt; omega⟩

/-! ## The edge message -/

/-- Hidden feature k of an edge: silu of the first layer's pre-activation. -/
def hidden (xr : Fin 128 → EReal) (er : Fin 32 → EReal) (w1a : Mat 128 128) (w1b : Mat 32 128) (b1 : Mat 1 128)
    (k : Fin 128) : EReal :=
  silu (((∑ i : Fin 128, xr i * w1a (ix2 i k)) + (∑ i : Fin 32, er i * w1b (ix2 i k))) + b1 (ix2 0 k))

/-- Feature q of an edge's message. -/
def edgeMsg (xr : Fin 128 → EReal) (er : Fin 32 → EReal) (w1a : Mat 128 128) (w1b : Mat 32 128) (w2 : Mat 128 128)
    (b1 b2 : Mat 1 128) (q : Fin 128) : EReal :=
  silu ((∑ k : Fin 128, hidden xr er w1a w1b b1 k * w2 (ix2 k q)) + b2 (ix2 0 q))

/-- The messages of all edges: row e is the message of the edge whose gathered node row and attribute row are rows e. -/
def msgArr (xg : Mat 800000 128) (ea : Mat 800000 32) (w1a : Mat 128 128) (w1b : Mat 32 128) (w2 : Mat 128 128)
    (b1 b2 : Mat 1 128) : Mat 800000 128 :=
  fun j => edgeMsg (fun i => xg (ix2 (j 0) i)) (fun i => ea (ix2 (j 0) i)) w1a w1b w2 b1 b2 (j 1)

/-! ## The node update -/

/-- Gate column c of a row against a 128 × 384 weight plus its bias. -/
def gatePre (row : Fin 128 → EReal) (w : Mat 128 384) (b : Mat 1 384) (c : Fin 384) : EReal :=
  (∑ k : Fin 128, row k * w (ix2 k c)) + b (ix2 0 c)

/-- Feature q of a node's new state. -/
def gruCell (ar xr : Fin 128 → EReal) (wih whh : Mat 128 384) (bih bhh : Mat 1 384) (q : Fin 128) : EReal :=
  ((one - Ideal.logistic (gatePre ar wih bih (gate1 q) + gatePre xr whh bhh (gate1 q)))
      * Ideal.tanh (gatePre ar wih bih (gate2 q)
          + Ideal.logistic (gatePre ar wih bih (gate0 q) + gatePre xr whh bhh (gate0 q)) * gatePre xr whh bhh (gate2 q)))
    + Ideal.logistic (gatePre ar wih bih (gate1 q) + gatePre xr whh bhh (gate1 q)) * xr q

/-- The new states of all nodes. -/
def gruArr (agg x : Mat 50000 128) (wih whh : Mat 128 384) (bih bhh : Mat 1 384) : Mat 50000 128 :=
  fun j => gruCell (fun i => agg (ix2 (j 0) i)) (fun i => x (ix2 (j 0) i)) wih whh bih bhh (j 1)

end Cert.GnnSpec

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Entry.lean ====
/-
  What the two kernel regions are entered with, read back through the host operations that run before them.

  Before the first region the host slices the first-layer weight W1 into its node block (columns 0..127) and its
  attribute block (columns 128..159) and transposes each, transposes W2, and recasts the two bias vectors as one-row
  matrices. So entry (i, k) of the node-block operand is W1 (k, i), entry (i, k) of the attribute-block operand is
  W1 (k, 128 + i), entry (k, q) of the second operand is W2 (q, k), and entry (0, k) of a bias row is the bias at k.
  Before the second region the host transposes W_ih and W_hh and recasts b_ih and b_hh the same way. An argument array
  that neither a host operation nor a region writes still holds its launch contents when a later stretch reads it.
-/
import proofs.«175639_j58634893525192_1_alg».proof.Proof.Gen.KernelIdeal.Frame
import proofs.«175639_j58634893525192_1_alg».proof.Proof.Spec
import proofs.«175639_j58634893525192_1_alg».proof.Proof.LibPlainDot
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Entry

open Cert.KernelIdeal Cert.KernelIdeal.Gen Idealize.ShloMosaic Idealize.ShloMosaic.TcCoe Idealize.ShloMosaic.StableHlo
open Idealize.SL.Sem Idealize.ShloMosaic.ValueIdx Cert.GnnSpec

variable (m : (ℓ : Loc nD τ sig) → Buf (Elt Ideal) ℓ) (ρ : Dev nD → PrngReg)

/-! ## Arguments no earlier item writes -/

/-- After the first host stretch an argument array still holds its launch contents. -/
theorem W1_arg0 (c : Dev nD) : W1 m ρ c (Proc.devRef .tc main_arg0) = m ((c : Thread nD τ).loc main_arg0) := by
  show StableHlo.after hostOps0 (W0 m ρ c) (Proc.devRef .tc main_arg0) = _; after_results
theorem W1_arg2 (c : Dev nD) : W1 m ρ c (Proc.devRef .tc main_arg2) = m ((c : Thread nD τ).loc main_arg2) := by
  show StableHlo.after hostOps0 (W0 m ρ c) (Proc.devRef .tc main_arg2) = _; after_results
theorem W1_arg7 (c : Dev nD) : W1 m ρ c (Proc.devRef .tc main_arg7) = m ((c : Thread nD τ).loc main_arg7) := by
  show StableHlo.after hostOps0 (W0 m ρ c) (Proc.devRef .tc main_arg7) = _; after_results
theorem W1_arg8 (c : Dev nD) : W1 m ρ c (Proc.devRef .tc main_arg8) = m ((c : Thread nD τ).loc main_arg8) := by
  show StableHlo.after hostOps0 (W0 m ρ c) (Proc.devRef .tc main_arg8) = _; after_results
theorem W1_arg9 (c : Dev nD) : W1 m ρ c (Proc.devRef .tc main_arg9) = m ((c : Thread nD τ).loc main_arg9) := by
  show StableHlo.after hostOps0 (W0 m ρ c) (Proc.devRef .tc main_arg9) = _; after_results
theorem W1_arg10 (c : Dev nD) : W1 m ρ c (Proc.devRef .tc main_arg10) = m ((c : Thread nD τ).loc main_arg10) := by
  show StableHlo.after hostOps0 (W0 m ρ c) (Proc.devRef .tc main_arg10) = _; after_results

/-- The first region writes none of these either. -/
theorem W2_arg0 (c : Dev nD) : W2 m ρ c (Proc.devRef .tc main_arg0) = m ((c : Thread nD τ).loc main_arg0) :=
  (W2_of_ne m ρ c main_arg0 (by decide)).trans (W1_arg0 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

/-! ## The first region's weight and bias operands, entry by entry -/

/-- The node-block operand: entry (i, k) is W1 (k, i). -/
theorem w1a_entry (c : Dev nD) (i k : Fin 128) :
    (V1 m ρ c main_v12 : S128x128.Idx → EReal) (ix2 i k) = (m ((c : Thread nD τ).loc main_arg3) : S128x160.Idx → EReal) (ix2 k (colA i)) := by
  have e : (V1 m ρ c main_v12 : S128x128.Idx → EReal)
      = transpose S128x128 [1, 0] (extractStridedSlice S128x128 ![0, 0] (m ((c : Thread nD τ).loc main_arg3)) slices_S128x160_S128x128_0_0) transposes_S128x128_S128x128_1_0 := by
    show StableHlo.after hostOps0 (W0 m ρ c) (Proc.devRef .tc main_v12) = _; after_results
  rw [e]
  refine (LibPlainDot.transpose2_apply _ transposes_S128x128_S128x128_1_0 i k).trans ?_
  exact extractStridedSlice_apply ![0, 0] _ slices_S128x160_S128x128_0_0 (ix2 k i) (ix2 k (colA i)) (fun a => match a with
    | ⟨0, _⟩ => by show k.val = 0 + k.val; omega
    | ⟨1, _⟩ => by show i.val = 0 + i.val; omega)

/-- The attribute-block operand: entry (i, k) is W1 (k, 128 + i). -/
theorem w1b_entry (c : Dev nD) (i : Fin 32) (k : Fin 128) :
    (V1 m ρ c main_v14 : S32x128.Idx → EReal) (ix2 i k) = (m ((c : Thread nD τ).loc main_arg3) : S128x160.Idx → EReal) (ix2 k (colB i)) := by
  have e : (V1 m ρ c main_v14 : S32x128.Idx → EReal)
      = transpose S32x128 [1, 0] (extractStridedSlice S128x32 ![0, 128] (m ((c : Thread nD τ).loc main_arg3)) slices_S128x160_S128x32_0_128) transposes_S128x32_S32x128_1_0 := by
    show StableHlo.after hostOps0 (W0 m ρ c) (Proc.devRef .tc main_v14) = _; after_results
  rw [e]
  refine (LibPlainDot.transpose2_apply _ transposes_S128x32_S32x128_1_0 i k).trans ?_
  exact extractStridedSlice_apply ![0, 128] _ slices_S128x160_S128x32_0_128 (ix2 k i) (ix2 k (colB i)) (fun a => match a with
    | ⟨0, _⟩ => by show k.val = 0 + k.val; omega
    | ⟨1, _⟩ => by show 128 + i.val = 128 + i.val; rfl)

/-- The second-layer operand: entry (k, q) is W2 (q, k). -/
theorem w2_entry (c : Dev nD) (k q : Fin 128) :
    (V1 m ρ c main_v15 : S128x128.Idx → EReal) (ix2 k q) = (m ((c : Thread nD τ).loc main_arg5) : S128x128.Idx → EReal) (ix2 q k) := by
  have e : (V1 m ρ c main_v15 : S128x128.Idx → EReal)
      = transpose S128x128 [1, 0] (m ((c : Thread nD τ).loc main_arg5)) transposes_S128x128_S128x128_1_0 := by
    show StableHlo.after hostOps0 (W0 m ρ c) (Proc.devRef .tc main_v15) = _; after_results
  rw [e]
  exact LibPlainDot.transpose2_apply _ transposes_S128x128_S128x128_1_0 k q

/-- A vector recast as a one-row matrix reads, at (0, k), the vector at k. -/
theorem rowCast_apply {α : Type} {C : Nat} (v : (⟨1, ![C]⟩ : Shape).Idx → α) (h : (⟨1, ![C]⟩ : Shape).ShapeCasts ⟨2, ![1, C]⟩) (k : Fin C) :
    shapeCast ⟨2, ![1, C]⟩ v h (ix2 (0 : Fin 1) k) = v (ix1 k) :=
  shapeCast_apply v h (ix2 (0 : Fin 1) k) (ix1 k) (by
    rw [Shape.rowMajor_val_one, Shape.rowMajor_val_two]
    show k.val = (0 : Nat) * C + k.val
    omega)

/-- The first bias row: entry (0, k) is b1 at k. -/
theorem b1_entry (c : Dev nD) (k : Fin 128) :
    (V1 m ρ c main_v16 : S1x128.Idx → EReal) (ix2 0 k) = (m ((c : Thread nD τ).loc main_arg4) : S128.Idx → EReal) (ix1 k) := by
  have e : (V1 m ρ c main_v16 : S1x128.Idx → EReal) = shapeCast S1x128 (m ((c : Thread nD τ).loc main_arg4)) shapeCasts_S128_S1x128 := by
    show StableHlo.after hostOps0 (W0 m ρ c) (Proc.devRef .tc main_v16) = _; after_results; rfl
  rw [e]
  exact rowCast_apply _ shapeCasts_S128_S1x128 k

/-- The second bias row: entry (0, q) is b2 at q. -/
theorem b2_entry (c : Dev nD) (q : Fin 128) :
    (V1 m ρ c main_v17 : S1x128.Idx → EReal) (ix2 0 q) = (m ((c : Thread nD τ).loc main_arg6) : S128.Idx → EReal) (ix1 q) := by
  have e : (V1 m ρ c main_v17 : S1x128.Idx → EReal) = shapeCast S1x128 (m ((c : Thread nD τ).loc main_arg6)) shapeCasts_S128_S1x128 := by
    show StableHlo.after hostOps0 (W0 m ρ c) (Proc.devRef .tc main_v17) = _; after_results; rfl
  rw [e]
  exact rowCast_apply _ shapeCasts_S128_S1x128 q

/-! ## The second region's weight and bias operands, entry by entry -/

/-- The input-gate operand: entry (k, g) is W_ih (g, k). -/
theorem wih_entry (c : Dev nD) (k : Fin 128) (g : Fin 384) :
    (V3 m ρ c main_v22 : S128x384.Idx → EReal) (ix2 k g) = (m ((c : Thread nD τ).loc main_arg7) : S384x128.Idx → EReal) (ix2 g k) := by
  have e : (V3 m ρ c main_v22 : S128x384.Idx → EReal)
      = transpose S128x384 [1, 0] (m ((c : Thread nD τ).loc main_arg7)) transposes_S384x128_S128x384_1_0 := by
    show StableHlo.after hostOps1 (W2 m ρ c) (Proc.devRef .tc main_v22) = _; after_results; rw [W2_arg7]
  rw [e]
  exact LibPlainDot.transpose2_apply _ transposes_S384x128_S128x384_1_0 k g

/-- The state-gate operand: entry (k, g) is W_hh (g, k). -/
theorem whh_entry (c : Dev nD) (k : Fin 128) (g : Fin 384) :
    (V3 m ρ c main_v23 : S128x384.Idx → EReal) (ix2 k g) = (m ((c : Thread nD τ).loc main_arg9) : S384x128.Idx → EReal) (ix2 g k) := by
  have e : (V3 m ρ c main_v23 : S128x384.Idx → EReal)
      = transpose S128x384 [1, 0] (m ((c : Thread nD τ).loc main_arg9)) transposes_S384x128_S128x384_1_0 := by
    show StableHlo.after hostOps1 (W2 m ρ c) (Proc.devRef .tc main_v23) = _; after_results; rw [W2_arg9]
  rw [e]
  exact LibPlainDot.transpose2_apply _ transposes_S384x128_S128x384_1_0 k g

/-- The input-gate bias row: entry (0, g) is b_ih at g. -/
theorem bih_entry (c : Dev nD) (g : Fin 384) :
    (V3 m ρ c main_v24 : S1x384.Idx → EReal) (ix2 0 g) = (m ((c : Thread nD τ).loc main_arg8) : S384.Idx → EReal) (ix1 g) := by
  have e : (V3 m ρ c main_v24 : S1x384.Idx → EReal) = shapeCast S1x384 (m ((c : Thread nD τ).loc main_arg8)) shapeCasts_S384_S1x384 := by
    show StableHlo.after hostOps1 (W2 m ρ c) (Proc.devRef .tc main_v24) = _; after_results; rw [W2_arg8]; rfl
  rw [e]
  exact rowCast_apply _ shapeCasts_S384_S1x384 g

/-- The state-gate bias row: entry (0, g) is b_hh at g. -/
theorem bhh_entry (c : Dev nD) (g : Fin 384) :
    (V3 m ρ c main_v25 : S1x384.Idx → EReal) (ix2 0 g) = (m ((c : Thread nD τ).loc main_arg10) : S384.Idx → EReal) (ix1 g) := by
  have e : (V3 m ρ c main_v25 : S1x384.Idx → EReal) = shapeCast S1x384 (m ((c : Thread nD τ).loc main_arg10)) shapeCasts_S384_S1x384 := by
    show StableHlo.after hostOps1 (W2 m ρ c) (Proc.devRef .tc main_v25) = _; after_results; rw [W2_arg10]; rfl
  rw [e]
  exact rowCast_apply _ shapeCasts_S384_S1x384 g

/-- The node states the second region reads are the launch contents of the node-state argument. -/
theorem x_entry (c : Dev nD) : V3 m ρ c main_arg0 = m ((c : Thread nD τ).loc main_arg0) := by
  show StableHlo.after hostOps1 (W2 m ρ c) (Proc.devRef .tc main_arg0) = _; after_results; exact W2_arg0 m ρ c

/-- The edge attributes the first region reads are the launch contents of the attribute argument. -/
theorem ea_entry (c : Dev nD) : V1 m ρ c main_arg2 = m ((c : Thread nD τ).loc main_arg2) := W1_arg2 m ρ c

end Cert.KernelIdeal.Entry

end
-- ==== Proof.MsgKernel.lean ====
/-
  The first kernel region (the edge network) as a value: after the region has run over its 100 grid points, the
  800000 × 128 message array holds, row by row, the message of Spec.lean computed from the arrays the region was
  entered with (the gathered node rows, the edge attributes, the two column blocks of the first weight, the second
  weight and the two bias rows).
-/
import proofs.«175639_j58634893525192_1_alg».proof.Proof.Gen.KernelIdeal.Frame
import proofs.«175639_j58634893525192_1_alg».proof.Proof.Spec
import proofs.«175639_j58634893525192_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MsgValue

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! ## The body's arithmetic at an index

  Over the extended reals a change of float format and a cast to the same shape are the identity, so the body's value
  is two dense layers with silu after each: the first layer's pre-activation is the sum of a 128-term and a 32-term
  contraction plus the bias row, the second layer contracts the 128 hidden features of the same row. -/

section Payload

variable (x0 : Vec Ideal S8000x128 .f32) (x1 : Vec Ideal S8000x32 .f32) (x2 : Vec Ideal S128x128 .f32)
  (x3 : Vec Ideal S32x128 .f32) (x4 : Vec Ideal S128x128 .f32) (x5 x6 : Vec Ideal S1x128 .f32)

/-- A product of an 8000 × 128 block with a 128 × 128 weight into the zero accumulator, at (p, q): the sum over the 128
    contracted features. -/
theorem mm128_apply (l : FVec Ideal S8000x128 .bf16) (r : FVec Ideal S128x128 .bf16) (p : Fin 8000) (q : Fin 128) :
    matmul dot_S8000x128_S128x128_S8000x128_1_0_0_1_n_n none l r (constant (F := Ideal) S8000x128 .f32 0x00000000#32) (ix2 p q)
      = ∑ k : Fin 128, (l (ix2 p k) : EReal) * (r (ix2 k q) : EReal) :=
  LibPlainDot.matmul_plain_zero (M := 8000) (K := 128) (N := 128) none l r (ix2 p q)

/-- The same for the 8000 × 32 attribute block against the 32 × 128 weight. -/
theorem mm32_apply (l : FVec Ideal S8000x32 .bf16) (r : FVec Ideal S32x128 .bf16) (p : Fin 8000) (q : Fin 128) :
    matmul dot_S8000x32_S32x128_S8000x128_1_0_0_1_n_n none l r (constant (F := Ideal) S8000x128 .f32 0x00000000#32) (ix2 p q)
      = ∑ k : Fin 32, (l (ix2 p k) : EReal) * (r (ix2 k q) : EReal) :=
  LibPlainDot.matmul_plain_zero (M := 8000) (K := 32) (N := 128) none l r (ix2 p q)

/-- A bias row broadcast down the 8000 rows reads, at (p, q), the row at q. -/
theorem bias_apply (b : Vec Ideal S1x128 .f32) (p : Fin 8000) (q : Fin 128) :
    broadcastTo S8000x128 (shapeCast S1x128 b shapeCasts_S1x128_S1x128) broadcasts_S1x128_S8000x128 (ix2 p q)
      = b (ix2 (0 : Fin 1) q) := by
  rw [shapeCast_self]
  exact broadcastTo_apply b broadcasts_S1x128_S8000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- The first layer's pre-activation, as the body computes it. -/
def pre1 : FVec Ideal S8000x128 .f32 :=
  addf
    (addf
      (matmul dot_S8000x128_S128x128_S8000x128_1_0_0_1_n_n none
        (truncf .bf16 (shapeCast S8000x128 x0 shapeCasts_S8000x128_S8000x128) bitsLt_bf16_f32)
        (truncf .bf16 (shapeCast S128x128 x2 shapeCasts_S128x128_S128x128) bitsLt_bf16_f32)
        (constant S8000x128 .f32 0x00000000#32))
      (matmul dot_S8000x32_S32x128_S8000x128_1_0_0_1_n_n none
        (truncf .bf16 x1 bitsLt_bf16_f32)
        (truncf .bf16 (shapeCast S32x128 x3 shapeCasts_S32x128_S32x128) bitsLt_bf16_f32)
        (constant S8000x128 .f32 0x00000000#32)))
    (broadcastTo S8000x128 (shapeCast S1x128 x5 shapeCasts_S1x128_S1x128) broadcasts_S1x128_S8000x128)

/-- The hidden layer: silu of the pre-activation, entry by entry. -/
def hid : FVec Ideal S8000x128 .f32 := mulf (pre1 x0 x1 x2 x3 x5) (logistic (pre1 x0 x1 x2 x3 x5))

/-- The second layer's pre-activation, as the body computes it. -/
def pre2 : FVec Ideal S8000x128 .f32 :=
  addf
    (matmul dot_S8000x128_S128x128_S8000x128_1_0_0_1_n_n none
      (truncf .bf16 (hid x0 x1 x2 x3 x5) bitsLt_bf16_f32)
      (truncf .bf16 (shapeCast S128x128 x4 shapeCasts_S128x128_S128x128) bitsLt_bf16_f32)
      (constant S8000x128 .f32 0x00000000#32))
    (broadcastTo S8000x128 (shapeCast S1x128 x6 shapeCasts_S1x128_S1x128) broadcasts_S1x128_S8000x128)

/-- The body's stored value is silu of the second pre-activation. -/
theorem pay_eq : k0_pay1 x0 x1 x2 x3 x4 x5 x6 = mulf (pre2 x0 x1 x2 x3 x4 x5 x6) (logistic (pre2 x0 x1 x2 x3 x4 x5 x6)) := rfl

/-- The first pre-activation at row p, hidden feature k. -/
theorem pre1_apply (p : Fin 8000) (k : Fin 128) :
    pre1 x0 x1 x2 x3 x5 (ix2 p k)
      = ((∑ i : Fin 128, x0 (ix2 p i) * x2 (ix2 i k)) + (∑ i : Fin 32, x1 (ix2 p i) * x3 (ix2 i k))) + x5 (ix2 (0 : Fin 1) k) := by
  unfold pre1
  rw [addf_apply, addf_apply, mm128_apply, mm32_apply, bias_apply]
  simp only [shapeCast_self]
  rfl

/-- The hidden layer at row p, feature k, is the specification's hidden feature of that row. -/
theorem hid_apply (p : Fin 8000) (k : Fin 128) :
    hid x0 x1 x2 x3 x5 (ix2 p k) = GnnSpec.hidden (fun i => x0 (ix2 p i)) (fun i => x1 (ix2 p i)) x2 x3 x5 k := by
  show pre1 x0 x1 x2 x3 x5 (ix2 p k) * Ideal.logistic (pre1 x0 x1 x2 x3 x5 (ix2 p k)) = _
  rw [pre1_apply]
  rfl

/-- The second pre-activation at row p, output feature q. -/
theorem pre2_apply (p : Fin 8000) (q : Fin 128) :
    pre2 x0 x1 x2 x3 x4 x5 x6 (ix2 p q)
      = (∑ k : Fin 128, GnnSpec.hidden (fun i => x0 (ix2 p i)) (fun i => x1 (ix2 p i)) x2 x3 x5 k * x4 (ix2 k q)) + x6 (ix2 (0 : Fin 1) q) := by
  unfold pre2
  rw [addf_apply, mm128_apply, bias_apply]
  simp only [shapeCast_self]
  refine congrArg (· + x6 (ix2 (0 : Fin 1) q)) (Finset.sum_congr rfl fun k _ => ?_)
  exact congrArg (· * x4 (ix2 k q)) (hid_apply x0 x1 x2 x3 x5 p k)

/-- THE BODY'S VALUE AT (p, q): feature q of the message of the edge whose two rows are rows p of the loaded blocks. -/
theorem pay_apply (p : Fin 8000) (q : Fin 128) :
    k0_pay1 x0 x1 x2 x3 x4 x5 x6 (ix2 p q)
      = GnnSpec.edgeMsg (fun i => x0 (ix2 p i)) (fun i => x1 (ix2 p i)) x2 x3 x4 x5 x6 q := by
  rw [pay_eq]
  show pre2 x0 x1 x2 x3 x4 x5 x6 (ix2 p q) * Ideal.logistic (pre2 x0 x1 x2 x3 x4 x5 x6 (ix2 p q)) = _
  rw [pre2_apply]
  rfl

end Payload

/-! ## From the blocks to the array

  Grid point t handles rows 8000·t … 8000·t + 7999: the gathered rows, the attribute rows and the message rows all
  move with the point along axis 0, while the weights and bias rows are read whole at every point. So the block point t
  writes back is the message array read through that point's row range, and the 100 row ranges cover the array. -/

/-- The zero offsets of a whole-buffer access. -/
theorem zero_offsets : (![0, 0] : Fin 2 → Nat) = fun _ => 0 := funext fun a => by
  match a with
  | ⟨0, _⟩ => rfl
  | ⟨1, _⟩ => rfl

/-- The block indices over the grid: the two row-blocked inputs and the output sit at row block t, column block 0; the
    weights and bias rows at block (0, 0). -/
theorem block_indices : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The body's value on blocks that are rows of arrays: if rows (j 0) of the two row blocks are rows (i 0) of the two
    edge arrays, the other five blocks are their whole arrays, and the column is the same, then the body's value at j is
    the message array at i. -/
theorem pay_block (x0 : Vec Ideal S8000x128 .f32) (x1 : Vec Ideal S8000x32 .f32) (x2 : Vec Ideal S128x128 .f32)
    (x3 : Vec Ideal S32x128 .f32) (x4 : Vec Ideal S128x128 .f32) (x5 x6 : Vec Ideal S1x128 .f32)
    (a0 : GnnSpec.Mat 800000 128) (a1 : GnnSpec.Mat 800000 32) (a2 : GnnSpec.Mat 128 128) (a3 : GnnSpec.Mat 32 128)
    (a4 : GnnSpec.Mat 128 128) (a5 a6 : GnnSpec.Mat 1 128)
    (j : S8000x128.Idx) (i : S800000x128.Idx)
    (h0 : ∀ k : Fin 128, x0 (ix2 (j 0) k) = a0 (ix2 (i 0) k))
    (h1 : ∀ k : Fin 32, x1 (ix2 (j 0) k) = a1 (ix2 (i 0) k))
    (h2 : x2 = a2) (h3 : x3 = a3) (h4 : x4 = a4) (h5 : x5 = a5) (h6 : x6 = a6)
    (hq : (j 1).val = (i 1).val) :
    k0_pay1 x0 x1 x2 x3 x4 x5 x6 j = GnnSpec.msgArr a0 a1 a2 a3 a4 a5 a6 i := by
  subst h2 h3 h4 h5 h6
  obtain ⟨p, q, rfl⟩ : ∃ (p : Fin 8000) (q : Fin 128), j = ix2 p q := ⟨j 0, j 1, eq_ix2 j⟩
  rw [pay_apply]
  have eq : q = i 1 := Fin.ext hq
  subst eq
  exact congrArg₂ (fun f g => GnnSpec.edgeMsg f g x2 x3 x4 x5 x6 (i 1)) (funext h0) (funext h1)

/-- WHAT POINT t WRITES BACK is the message array read through point t's block of rows. -/
theorem written_back_eq (c : Dev nD) (t : Fin cfg0.N) :
    (dat0 (F := Ideal) V c).flushed 7 t
      = ((cfg0.win 7).blk t).view.read (Elt Ideal)
          (GnnSpec.msgArr (V c main_v10) (V c main_arg2) (V c main_v12) (V c main_v14) (V c main_v15) (V c main_v16) (V c main_v17)) := by
  show (cfg0.win 7).cut (grid0.coords t) ((dat0 V c).after 7 t) = _
  rw [after0_7]
  unfold out0_7
  rw [View.canon_unit_zero zero_offsets]
  simp only [View.ld_unit_zero (S := S8000x128) zero_offsets, View.ld_unit_zero (S := S8000x32) zero_offsets, View.ld_unit_zero (S := S128x128) zero_offsets,
    View.ld_unit_zero (S := S32x128) zero_offsets, View.ld_unit_zero (S := S1x128) zero_offsets]
  obtain ⟨e00, e01, e10, e11, e20, e21, e30, e31, e40, e41, e50, e51, e60, e61, e70, e71⟩ := block_indices t
  funext j
  show k0_pay1 (iblk0 V c 0 t) (iblk0 V c 1 t) (iblk0 V c 2 t) (iblk0 V c 3 t) (iblk0 V c 4 t) (iblk0 V c 5 t) (iblk0 V c 6 t) j
      = GnnSpec.msgArr (V c main_v10) (V c main_arg2) (V c main_v12) (V c main_v14) (V c main_v15) (V c main_v16) (V c main_v17)
          (((cfg0.win 7).blk t).view.emb j)
  refine pay_block (iblk0 V c 0 t) (iblk0 V c 1 t) (iblk0 V c 2 t) (iblk0 V c 3 t) (iblk0 V c 4 t) (iblk0 V c 5 t) (iblk0 V c 6 t)
    (V c main_v10) (V c main_arg2) (V c main_v12) (V c main_v14) (V c main_v15) (V c main_v16) (V c main_v17)
    j (((cfg0.win 7).blk t).view.emb j) (fun k => ?_) (fun k => ?_) (funext fun y => ?_) (funext fun y => ?_) (funext fun y => ?_)
    (funext fun y => ?_) (funext fun y => ?_) ?_
  · -- the gathered rows: row (j 0) of block t is row 8000·t + (j 0) of the array, as for the output
    show V c main_v10 (((cfg0.win 0).blk t).view.emb (ix2 (j 0) k)) = V c main_v10 (ix2 ((((cfg0.win 7).blk t).view.emb j) 0) k)
    refine congrArg (V c main_v10) (funext fun a => Fin.ext ?_)
    match a with
    | ⟨0, _⟩ => show win0_0.index t (0 : Fin 2) * 8000 + 1 * (j 0).val = win0_7.index t (0 : Fin 2) * 8000 + 1 * (j 0).val; omega
    | ⟨1, _⟩ => show win0_0.index t (1 : Fin 2) * 128 + 1 * k.val = k.val; omega
  · -- the attribute rows likewise
    show V c main_arg2 (((cfg0.win 1).blk t).view.emb (ix2 (j 0) k)) = V c main_arg2 (ix2 ((((cfg0.win 7).blk t).view.emb j) 0) k)
    refine congrArg (V c main_arg2) (funext fun a => Fin.ext ?_)
    match a with
    | ⟨0, _⟩ => show win0_1.index t (0 : Fin 2) * 8000 + 1 * (j 0).val = win0_7.index t (0 : Fin 2) * 8000 + 1 * (j 0).val; omega
    | ⟨1, _⟩ => show win0_1.index t (1 : Fin 2) * 32 + 1 * k.val = k.val; omega
  · -- the node block of the first weight, whole
    show V c main_v12 (((cfg0.win 2).blk t).view.emb y) = V c main_v12 y
    refine congrArg (V c main_v12) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · -- the attribute block of the first weight, whole
    show V c main_v14 (((cfg0.win 3).blk t).view.emb y) = V c main_v14 y
    refine congrArg (V c main_v14) (funext fun a => Fin.ext ?_)
    match a with
    | ⟨0, _⟩ => show win0_3.index t (0 : Fin 2) * 32 + 1 * (y 0).val = (y 0).val; omega
    | ⟨1, _⟩ => show win0_3.index t (1 : Fin 2) * 128 + 1 * (y 1).val = (y 1).val; omega
  · -- the second weight, whole
    show V c main_v15 (((cfg0.win 4).blk t).view.emb y) = V c main_v15 y
    refine congrArg (V c main_v15) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · -- the first bias row, whole
    show V c main_v16 (((cfg0.win 5).blk t).view.emb y) = V c main_v16 y
    refine congrArg (V c main_v16) (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  · -- the second bias row, whole
    show V c main_v17 (((cfg0.win 6).blk t).view.emb y) = V c main_v17 y
    refine congrArg (V c main_v17) (funext fun a => Fin.ext ?_)
    match a with
    | ⟨0, _⟩ => show win0_6.index t (0 : Fin 2) * 1 + 1 * (y 0).val = (y 0).val; omega
    | ⟨1, _⟩ => show win0_6.index t (1 : Fin 2) * 128 + 1 * (y 1).val = (y 1).val; omega
  · -- the column is kept: the output's column block is 0
    show (j 1).val = win0_7.index t (1 : Fin 2) * 128 + 1 * (j 1).val
    omega

/-- Row i lies in the block of exactly the point i / 8000. -/
theorem mem_rows_block (t : Fin cfg0.N) (i : S800000x128.Idx) :
    i ∈ ((cfg0.win 7).blk t).view.set
      ↔ ∀ a : Fin 2, win0_7.index t a * S8000x128.size a ≤ (i a).val ∧ (i a).val < win0_7.index t a * S8000x128.size a + S8000x128.size a := by
  show i ∈ ((View.whole main_v18).slice (win0_7.rect t)).set ↔ _
  rw [View.set_slice_whole, Rect.mem_set_unit]
  exact Iff.rfl

/-- The 100 blocks of 8000 rows cover the 800000 rows. -/
theorem rows_covered (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  have ht : (i 0).val / 8000 < 100 := by omega
  refine ⟨⟨(i 0).val / 8000, ht⟩, flush0_7 _, ?_⟩
  rw [mem_rows_block]
  obtain ⟨-, -, -, -, -, -, -, -, -, -, -, -, -, -, e70, e71⟩ := block_indices ⟨(i 0).val / 8000, ht⟩
  intro a
  match a with
  | ⟨0, _⟩ =>
    show win0_7.index ⟨(i 0).val / 8000, ht⟩ (0 : Fin 2) * 8000 ≤ (i 0).val ∧ (i 0).val < win0_7.index ⟨(i 0).val / 8000, ht⟩ (0 : Fin 2) * 8000 + 8000
    rw [e70]
    show (i 0).val / 8000 * 8000 ≤ (i 0).val ∧ (i 0).val < (i 0).val / 8000 * 8000 + 8000
    omega
  | ⟨1, _⟩ =>
    show win0_7.index ⟨(i 0).val / 8000, ht⟩ (1 : Fin 2) * 128 ≤ (i 1).val ∧ (i 1).val < win0_7.index ⟨(i 0).val / 8000, ht⟩ (1 : Fin 2) * 128 + 128
    rw [e71]
    omega

/-- The message array after region 0, as one function of the arrays the region was entered with. -/
theorem final0 (c : Dev nD) :
    (dat0 (F := Ideal) V c).arrAt 7 cfg0.N
      = GnnSpec.msgArr (V c main_v10) (V c main_arg2) (V c main_v12) (V c main_v14) (V c main_v15) (V c main_v16) (V c main_v17) :=
  (dat0 (F := Ideal) V c).arrAt_eq_of_cover 7 _ (fun t _ => written_back_eq V c t) rows_covered

end Cert.KernelIdeal.MsgValue

end
-- ==== Proof.GruKernel.lean ====
/-
  The second kernel region (the gated recurrent node update) as a value: after the region has run over its 25 grid
  points, the 50000 × 128 result array holds, row by row, the new node state of Spec.lean computed from the arrays the
  region was entered with (the aggregated messages, the node states, the two 128 × 384 weights and the two bias rows).
-/
import proofs.«175639_j58634893525192_1_alg».proof.Proof.Gen.KernelIdeal.Frame
import proofs.«175639_j58634893525192_1_alg».proof.Proof.Spec
import proofs.«175639_j58634893525192_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GruValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The body's arithmetic at an index -/

/-- The logistic function and the hyperbolic tangent of a block, read at an index. -/
theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-- The three 128-column slices of the 384 gate columns: the slice at column offset 0, 128, 256 reads, at column q,
    the reset, update and candidate column of q. -/
theorem slice0 (v : FVec Ideal S2000x384 .f32) (p : Fin 2000) (q : Fin 128) :
    extractStridedSlice S2000x128 ![0, 0] v slices_S2000x384_o0_0_S2000x128 (ix2 p q) = v (ix2 p (GnnSpec.gate0 q)) :=
  extractStridedSlice_apply ![0, 0] v slices_S2000x384_o0_0_S2000x128 (ix2 p q) (ix2 p (GnnSpec.gate0 q)) fun a => by
    match a with
    | ⟨0, _⟩ => show p.val = 0 + p.val; omega
    | ⟨1, _⟩ => show q.val = 0 + q.val; omega

theorem slice1 (v : FVec Ideal S2000x384 .f32) (p : Fin 2000) (q : Fin 128) :
    extractStridedSlice S2000x128 ![0, 128] v slices_S2000x384_o0_128_S2000x128 (ix2 p q) = v (ix2 p (GnnSpec.gate1 q)) :=
  extractStridedSlice_apply ![0, 128] v slices_S2000x384_o0_128_S2000x128 (ix2 p q) (ix2 p (GnnSpec.gate1 q)) fun a => by
    match a with
    | ⟨0, _⟩ => show p.val = 0 + p.val; omega
    | ⟨1, _⟩ => show 128 + q.val = 128 + q.val; rfl

theorem slice2 (v : FVec Ideal S2000x384 .f32) (p : Fin 2000) (q : Fin 128) :
    extractStridedSlice S2000x128 ![0, 256] v slices_S2000x384_o0_256_S2000x128 (ix2 p q) = v (ix2 p (GnnSpec.gate2 q)) :=
  extractStridedSlice_apply ![0, 256] v slices_S2000x384_o0_256_S2000x128 (ix2 p q) (ix2 p (GnnSpec.gate2 q)) fun a => by
    match a with
    | ⟨0, _⟩ => show p.val = 0 + p.val; omega
    | ⟨1, _⟩ => show 256 + q.val = 256 + q.val; rfl

/-- The bias row broadcast down the 2000 rows reads the row at its column. -/
theorem bias_apply (b : FVec Ideal S1x384 .f32) (p : Fin 2000) (c : Fin 384) :
    broadcastTo S2000x384 b broadcasts_S1x384_S2000x384 (ix2 p c) = b (ix2 0 c) :=
  broadcastTo_apply b broadcasts_S1x384_S2000x384 (ix2 p c) (ix2 0 c) fun a => by
    match a with
    | ⟨0, _⟩ => show (0 : Nat) = if (1 : Nat) = 1 then 0 else _; rw [if_pos rfl]
    | ⟨1, _⟩ => show c.val = if (384 : Nat) = 1 then 0 else c.val; rw [if_neg (by decide)]

/-- The product of a 2000-row block with a 128 × 384 weight into the zero accumulator, at row p and gate column c: a
    sum over the 128 contracted features (the narrowing of the operands' format is the identity on the extended reals). -/
theorem mm_apply (x : Vec Ideal S2000x128 .f32) (w : Vec Ideal S128x384 .f32) (p : Fin 2000) (c : Fin 384) :
    matmul (F := Ideal) dot_S2000x128_S128x384_S2000x384_1_0_0_1_n_n none (truncf .bf16 x bitsLt_bf16_f32)
        (truncf .bf16 w bitsLt_bf16_f32) (constant (F := Ideal) S2000x384 .f32 0x00000000#32) (ix2 p c)
      = ∑ k : Fin 128, x (ix2 p k) * w (ix2 k c) :=
  Cert.LibPlainDot.matmul_plain_zero (M := 2000) (K := 128) (N := 384) none (truncf .bf16 x bitsLt_bf16_f32) (truncf .bf16 w bitsLt_bf16_f32) (ix2 p c)

/-- The body's result at row p and feature q of a block: the gated recurrent cell of Spec.lean on row p of the message
    block and of the state block. -/
theorem pay_apply (x0 x1 : Vec Ideal S2000x128 .f32) (x2 x3 : Vec Ideal S128x384 .f32) (x4 x5 : Vec Ideal S1x384 .f32)
    (p : Fin 2000) (q : Fin 128) :
    k1_pay1 x0 x1 x2 x3 x4 x5 (ix2 p q)
      = GnnSpec.gruCell (fun i => x0 (ix2 p i)) (fun i => x1 (ix2 p i)) x2 x3 x4 x5 q := by
  unfold k1_pay1
  simp only [shapeCast_self, addf_apply, mulf_apply, subf_apply, logistic_at, tanh_at, broadcast_apply, slice0, slice1, slice2,
    bias_apply, mm_apply]
  rfl

/-! ## From the blocks to the array -/

/-- The zero offsets of a whole-buffer access. -/
theorem hz : (![0, 0] : Fin 2 → Nat) = fun _ => 0 := funext fun a => by fin_cases a <;> rfl

/-- The printed index maps over the 25 grid points: the message block, the state block and the result block of point t
    are block row t (and block column 0); the two weights and the two bias rows sit at block (0, 0) at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The body's result at row p of a block whose message and state rows p are rows r of two 50000-row arrays, and whose
    weight and bias blocks are whole arrays: the new state of node r. -/
theorem pay_of_rows (A0 A1 : GnnSpec.Mat 50000 128) (A2 A3 : GnnSpec.Mat 128 384) (A4 A5 : GnnSpec.Mat 1 384)
    (x0 x1 : Vec Ideal S2000x128 .f32) (x2 x3 : Vec Ideal S128x384 .f32) (x4 x5 : Vec Ideal S1x384 .f32)
    (p : Fin 2000) (q : Fin 128) (r : Fin 50000)
    (h0 : ∀ i : Fin 128, x0 (ix2 p i) = A0 (ix2 r i)) (h1 : ∀ i : Fin 128, x1 (ix2 p i) = A1 (ix2 r i))
    (h2 : ∀ y, x2 y = A2 y) (h3 : ∀ y, x3 y = A3 y) (h4 : ∀ y, x4 y = A4 y) (h5 : ∀ y, x5 y = A5 y) :
    k1_pay1 x0 x1 x2 x3 x4 x5 (ix2 p q) = GnnSpec.gruArr A0 A1 A2 A3 A4 A5 (ix2 r q) := by
  obtain rfl : x2 = A2 := funext h2
  obtain rfl : x3 = A3 := funext h3
  obtain rfl : x4 = A4 := funext h4
  obtain rfl : x5 = A5 := funext h5
  rw [pay_apply]
  show GnnSpec.gruCell _ _ x2 x3 x4 x5 q = GnnSpec.gruCell (fun i => A0 (ix2 r i)) (fun i => A1 (ix2 r i)) x2 x3 x4 x5 q
  rw [funext h0, funext h1]

/-- What grid point t writes back is block t of the new-state array of the arrays the region was entered with. -/
theorem flushed_eq (c : Dev nD) (t : Fin cfg1.N) :
    (dat1 (F := Ideal) V c).flushed 6 t = ((cfg1.win 6).blk t).view.read (Elt Ideal) (GnnSpec.gruArr (V c main_v21) (V c main_arg0) (V c main_v22) (V c main_v23) (V c main_v24) (V c main_v25)) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x384) hz, View.ld_unit_zero (S := S1x384) hz]
  obtain ⟨e00, e01, e10, e11, e20, e21, e30, e31, e40, e41, e50, e51, e60, e61⟩ := idx_facts t
  funext j
  have hj0 : (j 0).val < 2000 := (j 0).isLt
  have hj1 : (j 1).val < 128 := (j 1).isLt
  have ht : t.val < 25 := t.isLt
  have hL : (cfg1.win 6).xinj (grid1.coords t) j = ix2 (⟨(j 0).val, hj0⟩ : Fin 2000) (⟨(j 1).val, hj1⟩ : Fin 128) :=
    funext fun a => by
      match a with
      | ⟨0, _⟩ => rfl
      | ⟨1, _⟩ => rfl
  have hR : ((cfg1.win 6).blk t).view.emb j = ix2 (⟨t.val * 2000 + (j 0).val, by omega⟩ : Fin 50000) (⟨(j 1).val, hj1⟩ : Fin 128) :=
    funext fun a => Fin.ext (by
      match a with
      | ⟨0, _⟩ => show win1_6.index t (0 : Fin 2) * 2000 + 1 * (j 0).val = t.val * 2000 + (j 0).val; omega
      | ⟨1, _⟩ => show win1_6.index t (1 : Fin 2) * 128 + 1 * (j 1).val = (j 1).val; omega)
  show k1_pay1 (iblk1 V c 0 t) (iblk1 V c 1 t) (iblk1 V c 2 t) (iblk1 V c 3 t) (iblk1 V c 4 t) (iblk1 V c 5 t) ((cfg1.win 6).xinj (grid1.coords t) j)
    = GnnSpec.gruArr (V c main_v21) (V c main_arg0) (V c main_v22) (V c main_v23) (V c main_v24) (V c main_v25) (((cfg1.win 6).blk t).view.emb j)
  refine (congrArg (k1_pay1 (iblk1 V c 0 t) (iblk1 V c 1 t) (iblk1 V c 2 t) (iblk1 V c 3 t) (iblk1 V c 4 t) (iblk1 V c 5 t)) hL).trans (Eq.trans ?_ (congrArg (GnnSpec.gruArr (V c main_v21) (V c main_arg0) (V c main_v22) (V c main_v23) (V c main_v24) (V c main_v25)) hR.symm))
  refine pay_of_rows (V c main_v21) (V c main_arg0) (V c main_v22) (V c main_v23) (V c main_v24) (V c main_v25) (iblk1 V c 0 t) (iblk1 V c 1 t) (iblk1 V c 2 t) (iblk1 V c 3 t) (iblk1 V c 4 t) (iblk1 V c 5 t) _ _ _ (fun i => ?_) (fun i => ?_) (fun y => ?_) (fun y => ?_) (fun y => ?_) (fun y => ?_)
  · show V c main_v21 (((cfg1.win 0).blk t).view.emb (ix2 (⟨(j 0).val, hj0⟩ : Fin 2000) i)) = V c main_v21 (ix2 (⟨t.val * 2000 + (j 0).val, by omega⟩ : Fin 50000) i)
    refine congrArg (V c main_v21) (funext fun a => Fin.ext ?_)
    match a with
    | ⟨0, _⟩ => show win1_0.index t (0 : Fin 2) * 2000 + 1 * (j 0).val = t.val * 2000 + (j 0).val; omega
    | ⟨1, _⟩ => show win1_0.index t (1 : Fin 2) * 128 + 1 * i.val = i.val; omega
  · show V c main_arg0 (((cfg1.win 1).blk t).view.emb (ix2 (⟨(j 0).val, hj0⟩ : Fin 2000) i)) = V c main_arg0 (ix2 (⟨t.val * 2000 + (j 0).val, by omega⟩ : Fin 50000) i)
    refine congrArg (V c main_arg0) (funext fun a => Fin.ext ?_)
    match a with
    | ⟨0, _⟩ => show win1_1.index t (0 : Fin 2) * 2000 + 1 * (j 0).val = t.val * 2000 + (j 0).val; omega
    | ⟨1, _⟩ => show win1_1.index t (1 : Fin 2) * 128 + 1 * i.val = i.val; omega
  · show V c main_v22 (((cfg1.win 2).blk t).view.emb y) = V c main_v22 y
    refine congrArg (V c main_v22) (funext fun a => Fin.ext ?_)
    match a with
    | ⟨0, _⟩ => show win1_2.index t (0 : Fin 2) * 128 + 1 * (y 0).val = (y 0).val; omega
    | ⟨1, _⟩ => show win1_2.index t (1 : Fin 2) * 384 + 1 * (y 1).val = (y 1).val; omega
  · show V c main_v23 (((cfg1.win 3).blk t).view.emb y) = V c main_v23 y
    refine congrArg (V c main_v23) (funext fun a => Fin.ext ?_)
    match a with
    | ⟨0, _⟩ => show win1_3.index t (0 : Fin 2) * 128 + 1 * (y 0).val = (y 0).val; omega
    | ⟨1, _⟩ => show win1_3.index t (1 : Fin 2) * 384 + 1 * (y 1).val = (y 1).val; omega
  · show V c main_v24 (((cfg1.win 4).blk t).view.emb y) = V c main_v24 y
    refine congrArg (V c main_v24) (funext fun a => Fin.ext ?_)
    match a with
    | ⟨0, _⟩ => show win1_4.index t (0 : Fin 2) * 1 + 1 * (y 0).val = (y 0).val; omega
    | ⟨1, _⟩ => show win1_4.index t (1 : Fin 2) * 384 + 1 * (y 1).val = (y 1).val; omega
  · show V c main_v25 (((cfg1.win 5).blk t).view.emb y) = V c main_v25 y
    refine congrArg (V c main_v25) (funext fun a => Fin.ext ?_)
    match a with
    | ⟨0, _⟩ => show win1_5.index t (0 : Fin 2) * 1 + 1 * (y 0).val = (y 0).val; omega
    | ⟨1, _⟩ => show win1_5.index t (1 : Fin 2) * 384 + 1 * (y 1).val = (y 1).val; omega

/-- Row r of the result array lies in the block of grid point r / 2000, and every point writes its block back. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 2000 := ⟨⟨(i 0).val / 2000, by show _ < 25; omega⟩, rfl⟩
  obtain ⟨e00, e01, e10, e11, e20, e21, e30, e31, e40, e41, e50, e51, e60, e61⟩ := idx_facts t
  refine ⟨t, flush1_6 t, ?_⟩
  show i ∈ ((View.whole main_v26).slice (win1_6.rect t)).set
  rw [View.set_slice_whole, Rect.mem_set_unit]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The result array after region 1, as one function of the arrays the region was entered with. -/
theorem final1 (c : Dev nD) :
    (dat1 (F := Ideal) V c).arrAt 6 cfg1.N
      = GnnSpec.gruArr (V c main_v21) (V c main_arg0) (V c main_v22) (V c main_v23) (V c main_v24) (V c main_v25) :=
  (dat1 (F := Ideal) V c).arrAt_eq_of_cover 6 (GnnSpec.gruArr (V c main_v21) (V c main_arg0) (V c main_v22) (V c main_v23) (V c main_v24) (V c main_v25))
    (fun t _ => flushed_eq V c t) cover

end Cert.KernelIdeal.GruValue

end
-- ==== Proof.RefMsg.lean ====
/-
  The reference program's message array as a value. Read one operation at a time, the reference's term for the
  messages is `msgArr` of the gathered node rows and the edge attributes, for any weights w1a, w1b, w2 and bias rows
  b1, b2 whose entries are the corresponding entries of the arguments W1 (its node block and its attribute block,
  transposed), W2 (transposed), b1 and b2. The reference contracts all 160 concatenated features at once; the sum splits
  into the node block's and the attribute block's (`GnnSpec.sum_split`), and a concatenated row reads its left piece on
  the node columns and its right piece on the attribute columns. The reference spells the logistic function as
  1 / (1 + exp (-t)) with the float word of 1.0, which denotes 1 (`GnnSpec.logistic_spelled`). The gather is never
  opened: it stays as the operation's own term.
-/
import proofs.«175639_j58634893525192_1_alg».proof.Proof.Gen.ReferenceIdeal.Read
import proofs.«175639_j58634893525192_1_alg».proof.Proof.Spec
import proofs.«175639_j58634893525192_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMsg

open Cert.ReferenceIdeal Cert.ReferenceIdeal.Gen Cert.ReferenceIdeal.Read Idealize.ShloMosaic Idealize.ShloMosaic.ValueIdx Cert.GnnSpec

open scoped BigOperators

variable (x0 : (⟨S50000x128, .f32⟩ : BufTy).Contents (Elt Ideal)) (x1 : (⟨S2x800000, .i32⟩ : BufTy).Contents (Elt Ideal)) (x2 : (⟨S800000x32, .f32⟩ : BufTy).Contents (Elt Ideal)) (x3 : (⟨S128x160, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))

/-! ## The logistic function as the reference spells it -/

/-- The first silu: the hidden array is silu of the first layer's pre-activation, entry by entry. -/
theorem v17_silu (i : S800000x128.Idx) :
    val_main_v17 (F := Ideal) x0 x1 x2 x3 x4 i = silu (val_main_v16 (F := Ideal) x0 x1 x2 x3 x4 i) := by
  rw [val_main_v17_apply, val_main_call0_v5_apply, val_main_call0_v4_apply, val_main_call0_cst_0_apply,
    val_main_call0_v3_apply, val_main_call0_v2_apply, val_main_call0_cst_apply, val_main_call0_v1_apply,
    val_main_call0_v0_apply]
  exact congrArg (fun s => val_main_v16 (F := Ideal) x0 x1 x2 x3 x4 i * s)
    (logistic_spelled (val_main_v16 (F := Ideal) x0 x1 x2 x3 x4 i))

/-- The second silu: the message array is silu of the second layer's pre-activation, entry by entry. -/
theorem v23_silu (i : S800000x128.Idx) :
    val_main_v23 (F := Ideal) x0 x1 x2 x3 x4 x5 x6 i = silu (val_main_v22 (F := Ideal) x0 x1 x2 x3 x4 x5 x6 i) := by
  rw [val_main_v23_apply, val_main_call1_v5_apply, val_main_call1_v4_apply, val_main_call1_cst_0_apply,
    val_main_call1_v3_apply, val_main_call1_v2_apply, val_main_call1_cst_apply, val_main_call1_v1_apply,
    val_main_call1_v0_apply]
  exact congrArg (fun s => val_main_v22 (F := Ideal) x0 x1 x2 x3 x4 x5 x6 i * s)
    (logistic_spelled (val_main_v22 (F := Ideal) x0 x1 x2 x3 x4 x5 x6 i))

/-! ## The concatenated row: node columns read the gathered rows, attribute columns read the attributes -/

/-- On a node column the concatenated row e reads the gathered row e. -/
theorem v11_colA (e : Fin 800000) (k i : Fin 128) :
    val_main_v11 (F := Ideal) x0 x1 x2 (lidx_main_v13 (ix2 e k) (colA i)) = val_main_v10 (F := Ideal) x0 x1 (ix2 e i) := by
  unfold val_main_v11
  exact concatenate_pair_apply_left 1 _ _ concatenates_S800000x128_S800000x32_S800000x160_d1 _ rfl (ix2 e i)
    (fun b => match b with
      | ⟨0, _⟩ => rfl
      | ⟨1, _⟩ => rfl)

/-- On an attribute column the concatenated row e reads the attribute row e, 128 columns to the left. -/
theorem v11_colB (e : Fin 800000) (k : Fin 128) (i : Fin 32) :
    val_main_v11 (F := Ideal) x0 x1 x2 (lidx_main_v13 (ix2 e k) (colB i)) = x2 (ix2 e i) := by
  unfold val_main_v11
  refine concatenate_pair_apply_right 1 _ _ concatenates_S800000x128_S800000x32_S800000x160_d1 _ rfl rfl (ix2 e i) ?_ ?_
  · intro b hb
    match b, hb with
    | ⟨0, _⟩, _ => rfl
    | ⟨1, _⟩, hb => exact absurd (Fin.ext rfl) hb
  · show i.val + 128 = 128 + i.val
    omega

/-! ## Index equations: the composed reading indices in coordinates -/

/-- The transposed first weight at (c, k) is read at (k, c). -/
theorem idx_w1 (j : S800000x128.Idx) (c : Fin 160) : idx_main_v12 (ridx_main_v13 j c) = ix2 (j 1) c :=
  funext fun a => match a with
    | ⟨0, _⟩ => rfl
    | ⟨1, _⟩ => rfl

/-- The transposed second weight at (k, q) is read at (q, k). -/
theorem idx_w2 (j : S800000x128.Idx) (k : Fin 128) : idx_main_v18 (ridx_main_v19 j k) = ix2 (j 1) k :=
  funext fun a => match a with
    | ⟨0, _⟩ => rfl
    | ⟨1, _⟩ => rfl

/-- The first bias, laid along the columns, is read at the column. -/
theorem idx_b1 (j : S800000x128.Idx) : idx_main_v14 (idx_main_v15 j) = ix1 (j 1) :=
  funext fun a => match a with
    | ⟨0, _⟩ => rfl

/-- The second bias likewise. -/
theorem idx_b2 (j : S800000x128.Idx) : idx_main_v20 (idx_main_v21 j) = ix1 (j 1) :=
  funext fun a => match a with
    | ⟨0, _⟩ => rfl

/-- The second contraction's left operand at (e, q) and k is the hidden array at (e, k). -/
theorem idx_h (e : Fin 800000) (q k : Fin 128) : lidx_main_v19 (ix2 e q) k = ix2 e k :=
  funext fun a => match a with
    | ⟨0, _⟩ => rfl
    | ⟨1, _⟩ => rfl

/-! ## The first layer -/

/-- The first layer's pre-activation at (e, k): the contraction over the 160 concatenated features splits into the
    node block's and the attribute block's. -/
theorem v16_pre (w1a : Mat 128 128) (w1b : Mat 32 128) (b1 : Mat 1 128)
    (h1a : ∀ (i k : Fin 128), w1a (ix2 i k) = x3 (ix2 k (colA i)))
    (h1b : ∀ (i : Fin 32) (k : Fin 128), w1b (ix2 i k) = x3 (ix2 k (colB i)))
    (hb1 : ∀ k : Fin 128, b1 (ix2 0 k) = x4 (ix1 k))
    (e : Fin 800000) (k : Fin 128) :
    val_main_v16 (F := Ideal) x0 x1 x2 x3 x4 (ix2 e k)
      = ((∑ i : Fin 128, val_main_v10 (F := Ideal) x0 x1 (ix2 e i) * w1a (ix2 i k))
          + (∑ i : Fin 32, x2 (ix2 e i) * w1b (ix2 i k))) + b1 (ix2 0 k) := by
  rw [val_main_v16_apply, val_main_v13_apply, sum_split, Ideal.addf_def]
  refine congrArg₂ (· + ·) (congrArg₂ (· + ·) (Finset.sum_congr rfl fun i _ => ?_) (Finset.sum_congr rfl fun i _ => ?_)) ?_
  · rw [v11_colA, val_main_v12_apply, idx_w1, h1a]; rfl
  · rw [v11_colB, val_main_v12_apply, idx_w1, h1b]; rfl
  · rw [val_main_v15_apply, val_main_v14_apply, idx_b1, hb1]; rfl

/-- The hidden array at (e, k) is the specification's hidden feature k of edge e. -/
theorem v17_hidden (w1a : Mat 128 128) (w1b : Mat 32 128) (b1 : Mat 1 128)
    (h1a : ∀ (i k : Fin 128), w1a (ix2 i k) = x3 (ix2 k (colA i)))
    (h1b : ∀ (i : Fin 32) (k : Fin 128), w1b (ix2 i k) = x3 (ix2 k (colB i)))
    (hb1 : ∀ k : Fin 128, b1 (ix2 0 k) = x4 (ix1 k))
    (e : Fin 800000) (k : Fin 128) :
    val_main_v17 (F := Ideal) x0 x1 x2 x3 x4 (ix2 e k)
      = hidden (fun i => val_main_v10 (F := Ideal) x0 x1 (ix2 e i)) (fun i => x2 (ix2 e i)) w1a w1b b1 k := by
  rw [v17_silu, v16_pre x0 x1 x2 x3 x4 w1a w1b b1 h1a h1b hb1]
  rfl

/-! ## The second layer -/

/-- The second layer's pre-activation at (e, q). -/
theorem v22_pre (w1a : Mat 128 128) (w1b : Mat 32 128) (w2 : Mat 128 128) (b1 b2 : Mat 1 128)
    (h1a : ∀ (i k : Fin 128), w1a (ix2 i k) = x3 (ix2 k (colA i)))
    (h1b : ∀ (i : Fin 32) (k : Fin 128), w1b (ix2 i k) = x3 (ix2 k (colB i)))
    (h2 : ∀ (k q : Fin 128), w2 (ix2 k q) = x5 (ix2 q k))
    (hb1 : ∀ k : Fin 128, b1 (ix2 0 k) = x4 (ix1 k))
    (hb2 : ∀ q : Fin 128, b2 (ix2 0 q) = x6 (ix1 q))
    (e : Fin 800000) (q : Fin 128) :
    val_main_v22 (F := Ideal) x0 x1 x2 x3 x4 x5 x6 (ix2 e q)
      = (∑ k : Fin 128, hidden (fun i => val_main_v10 (F := Ideal) x0 x1 (ix2 e i)) (fun i => x2 (ix2 e i)) w1a w1b b1 k
            * w2 (ix2 k q)) + b2 (ix2 0 q) := by
  rw [val_main_v22_apply, val_main_v19_apply, Ideal.addf_def]
  refine congrArg₂ (· + ·) (Finset.sum_congr rfl fun k _ => ?_) ?_
  · rw [idx_h, v17_hidden x0 x1 x2 x3 x4 w1a w1b b1 h1a h1b hb1, val_main_v18_apply, idx_w2, h2]; rfl
  · rw [val_main_v21_apply, val_main_v20_apply, idx_b2, hb2]; rfl

/-- The reference's message array is the specification's, over the gathered rows as the reference gathers them. -/
theorem ref_msg (x0 : (⟨S50000x128, .f32⟩ : BufTy).Contents (Elt Ideal)) (x1 : (⟨S2x800000, .i32⟩ : BufTy).Contents (Elt Ideal)) (x2 : (⟨S800000x32, .f32⟩ : BufTy).Contents (Elt Ideal)) (x3 : (⟨S128x160, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (w1a : Mat 128 128) (w1b : Mat 32 128) (w2 : Mat 128 128) (b1 b2 : Mat 1 128)
    (h1a : ∀ (i k : Fin 128), w1a (ix2 i k) = x3 (ix2 k (colA i)))
    (h1b : ∀ (i : Fin 32) (k : Fin 128), w1b (ix2 i k) = x3 (ix2 k (colB i)))
    (h2 : ∀ (k q : Fin 128), w2 (ix2 k q) = x5 (ix2 q k))
    (hb1 : ∀ k : Fin 128, b1 (ix2 0 k) = x4 (ix1 k))
    (hb2 : ∀ q : Fin 128, b2 (ix2 0 q) = x6 (ix1 q)) :
    val_main_v23 (F := Ideal) x0 x1 x2 x3 x4 x5 x6
      = msgArr (val_main_v10 (F := Ideal) x0 x1) x2 w1a w1b w2 b1 b2 := by
  funext j
  obtain ⟨e, q, rfl⟩ : ∃ (e : Fin 800000) (q : Fin 128), j = ix2 e q := ⟨j 0, j 1, eq_ix2 j⟩
  rw [v23_silu, v22_pre x0 x1 x2 x3 x4 x5 x6 w1a w1b w2 b1 b2 h1a h1b h2 hb1 hb2]
  rfl

end Cert.ReferenceIdeal.RefMsg

end
-- ==== Proof.RefOut.lean ====
/-
  The reference program's result as a value. Read one operation at a time, the reference's term for the new node
  states is `gruArr` of its own aggregated messages (the scatter-add, never opened) and the node states, for any
  128 × 384 weights and bias rows whose entries are those of W_ih, W_hh (transposed) and b_ih, b_hh. The reference spells
  the logistic function as 1 / (1 + exp (-t)) with the float word of 1.0, which denotes 1 (`GnnSpec.logistic_spelled`);
  the three gate blocks are column slices of the 384-wide products.
-/
import proofs.«175639_j58634893525192_1_alg».proof.Proof.Gen.ReferenceIdeal.Read
import proofs.«175639_j58634893525192_1_alg».proof.Proof.Spec
import proofs.«175639_j58634893525192_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefOut

open Cert.ReferenceIdeal Cert.ReferenceIdeal.Gen Cert.ReferenceIdeal.Read Idealize.ShloMosaic Idealize.ShloMosaic.ValueIdx Cert.GnnSpec

/-! ## Index equations: the composed reads are coordinate pairs -/

theorem lidx28 (p : Fin 50000) (c : Fin 384) (k : Fin 128) : lidx_main_v28 (ix2 p c) k = ix2 p k :=
  funext fun a => Fin.ext (by match a with | ⟨0, _⟩ => rfl | ⟨1, _⟩ => rfl)

theorem ridx28 (p : Fin 50000) (c : Fin 384) (k : Fin 128) : idx_main_v27 (ridx_main_v28 (ix2 p c) k) = ix2 c k :=
  funext fun a => Fin.ext (by match a with | ⟨0, _⟩ => rfl | ⟨1, _⟩ => rfl)

theorem bidx30 (p : Fin 50000) (c : Fin 384) : idx_main_v29 (idx_main_v30 (ix2 p c)) = ix1 c :=
  funext fun a => Fin.ext (by match a with | ⟨0, _⟩ => rfl)

theorem lidx33 (p : Fin 50000) (c : Fin 384) (k : Fin 128) : lidx_main_v33 (ix2 p c) k = ix2 p k :=
  funext fun a => Fin.ext (by match a with | ⟨0, _⟩ => rfl | ⟨1, _⟩ => rfl)

theorem ridx33 (p : Fin 50000) (c : Fin 384) (k : Fin 128) : idx_main_v32 (ridx_main_v33 (ix2 p c) k) = ix2 c k :=
  funext fun a => Fin.ext (by match a with | ⟨0, _⟩ => rfl | ⟨1, _⟩ => rfl)

theorem bidx35 (p : Fin 50000) (c : Fin 384) : idx_main_v34 (idx_main_v35 (ix2 p c)) = ix1 c :=
  funext fun a => Fin.ext (by match a with | ⟨0, _⟩ => rfl)

/-! ## The two 384-wide gate pre-activations at a column -/

/-- Column c of the message-side pre-activations of node p: its aggregated row against W_ih (transposed) plus b_ih. -/
theorem gi_apply (x0 : (⟨S50000x128, .f32⟩ : BufTy).Contents (Elt Ideal)) (x1 : (⟨S2x800000, .i32⟩ : BufTy).Contents (Elt Ideal)) (x2 : (⟨S800000x32, .f32⟩ : BufTy).Contents (Elt Ideal)) (x3 : (⟨S128x160, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S384x128, .f32⟩ : BufTy).Contents (Elt Ideal)) (x8 : (⟨S384, .f32⟩ : BufTy).Contents (Elt Ideal))
    (wih : Mat 128 384) (bih : Mat 1 384)
    (hih : ∀ (k : Fin 128) (c : Fin 384), wih (ix2 k c) = x7 (ix2 c k))
    (hbi : ∀ c : Fin 384, bih (ix2 0 c) = x8 (ix1 c)) (p : Fin 50000) (c : Fin 384) :
    val_main_v31 (F := Ideal) x0 x1 x2 x3 x4 x5 x6 x7 x8 (ix2 p c)
      = gatePre (fun i => val_main_v26 (F := Ideal) x0 x1 x2 x3 x4 x5 x6 (ix2 p i)) wih bih c := by
  rw [val_main_v31_apply, val_main_v28_apply, val_main_v30_apply, val_main_v29_apply, bidx30, Ideal.addf_def]
  unfold gatePre
  rw [hbi]
  refine congrArg (· + x8 (ix1 c)) (Finset.sum_congr rfl fun k _ => ?_)
  rw [val_main_v27_apply, lidx28, ridx28, hih]

/-- Column c of the state-side pre-activations of node p: its state row against W_hh (transposed) plus b_hh. -/
theorem gh_apply (x0 : (⟨S50000x128, .f32⟩ : BufTy).Contents (Elt Ideal)) (x9 : (⟨S384x128, .f32⟩ : BufTy).Contents (Elt Ideal)) (x10 : (⟨S384, .f32⟩ : BufTy).Contents (Elt Ideal))
    (whh : Mat 128 384) (bhh : Mat 1 384)
    (hhh : ∀ (k : Fin 128) (c : Fin 384), whh (ix2 k c) = x9 (ix2 c k))
    (hbh : ∀ c : Fin 384, bhh (ix2 0 c) = x10 (ix1 c)) (p : Fin 50000) (c : Fin 384) :
    val_main_v36 (F := Ideal) x0 x9 x10 (ix2 p c)
      = gatePre (fun i => x0 (ix2 p i)) whh bhh c := by
  rw [val_main_v36_apply, val_main_v33_apply, val_main_v35_apply, val_main_v34_apply, bidx35, Ideal.addf_def]
  unfold gatePre
  rw [hbh]
  refine congrArg (· + x10 (ix1 c)) (Finset.sum_congr rfl fun k _ => ?_)
  rw [val_main_v32_apply, lidx33, ridx33, hhh]

/-! ## The three 128-column blocks of each -/

theorem idx37 (p : Fin 50000) (q : Fin 128) : idx_main_v37 (ix2 p q) = ix2 p (gate0 q) :=
  funext fun a => Fin.ext (by match a with | ⟨0, _⟩ => rfl | ⟨1, _⟩ => rfl)

theorem gi0_apply (x0 : (⟨S50000x128, .f32⟩ : BufTy).Contents (Elt Ideal)) (x1 : (⟨S2x800000, .i32⟩ : BufTy).Contents (Elt Ideal)) (x2 : (⟨S800000x32, .f32⟩ : BufTy).Contents (Elt Ideal)) (x3 : (⟨S128x160, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S384x128, .f32⟩ : BufTy).Contents (Elt Ideal)) (x8 : (⟨S384, .f32⟩ : BufTy).Contents (Elt Ideal))
    (wih : Mat 128 384) (bih : Mat 1 384)
    (hih : ∀ (k : Fin 128) (c : Fin 384), wih (ix2 k c) = x7 (ix2 c k))
    (hbi : ∀ c : Fin 384, bih (ix2 0 c) = x8 (ix1 c)) (p : Fin 50000) (q : Fin 128) :
    val_main_v37 (F := Ideal) x0 x1 x2 x3 x4 x5 x6 x7 x8 (ix2 p q)
      = gatePre (fun i => val_main_v26 (F := Ideal) x0 x1 x2 x3 x4 x5 x6 (ix2 p i)) wih bih (gate0 q) := by
  rw [val_main_v37_apply, idx37]
  exact gi_apply x0 x1 x2 x3 x4 x5 x6 x7 x8 wih bih hih hbi p (gate0 q)

theorem idx38 (p : Fin 50000) (q : Fin 128) : idx_main_v38 (ix2 p q) = ix2 p (gate1 q) :=
  funext fun a => Fin.ext (by match a with | ⟨0, _⟩ => rfl | ⟨1, _⟩ => rfl)

theorem gi1_apply (x0 : (⟨S50000x128, .f32⟩ : BufTy).Contents (Elt Ideal)) (x1 : (⟨S2x800000, .i32⟩ : BufTy).Contents (Elt Ideal)) (x2 : (⟨S800000x32, .f32⟩ : BufTy).Contents (Elt Ideal)) (x3 : (⟨S128x160, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S384x128, .f32⟩ : BufTy).Contents (Elt Ideal)) (x8 : (⟨S384, .f32⟩ : BufTy).Contents (Elt Ideal))
    (wih : Mat 128 384) (bih : Mat 1 384)
    (hih : ∀ (k : Fin 128) (c : Fin 384), wih (ix2 k c) = x7 (ix2 c k))
    (hbi : ∀ c : Fin 384, bih (ix2 0 c) = x8 (ix1 c)) (p : Fin 50000) (q : Fin 128) :
    val_main_v38 (F := Ideal) x0 x1 x2 x3 x4 x5 x6 x7 x8 (ix2 p q)
      = gatePre (fun i => val_main_v26 (F := Ideal) x0 x1 x2 x3 x4 x5 x6 (ix2 p i)) wih bih (gate1 q) := by
  rw [val_main_v38_apply, idx38]
  exact gi_apply x0 x1 x2 x3 x4 x5 x6 x7 x8 wih bih hih hbi p (gate1 q)

theorem idx39 (p : Fin 50000) (q : Fin 128) : idx_main_v39 (ix2 p q) = ix2 p (gate2 q) :=
  funext fun a => Fin.ext (by match a with | ⟨0, _⟩ => rfl | ⟨1, _⟩ => rfl)

theorem gi2_apply (x0 : (⟨S50000x128, .f32⟩ : BufTy).Contents (Elt Ideal)) (x1 : (⟨S2x800000, .i32⟩ : BufTy).Contents (Elt Ideal)) (x2 : (⟨S800000x32, .f32⟩ : BufTy).Contents (Elt Ideal)) (x3 : (⟨S128x160, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S384x128, .f32⟩ : BufTy).Contents (Elt Ideal)) (x8 : (⟨S384, .f32⟩ : BufTy).Contents (Elt Ideal))
    (wih : Mat 128 384) (bih : Mat 1 384)
    (hih : ∀ (k : Fin 128) (c : Fin 384), wih (ix2 k c) = x7 (ix2 c k))
    (hbi : ∀ c : Fin 384, bih (ix2 0 c) = x8 (ix1 c)) (p : Fin 50000) (q : Fin 128) :
    val_main_v39 (F := Ideal) x0 x1 x2 x3 x4 x5 x6 x7 x8 (ix2 p q)
      = gatePre (fun i => val_main_v26 (F := Ideal) x0 x1 x2 x3 x4 x5 x6 (ix2 p i)) wih bih (gate2 q) := by
  rw [val_main_v39_apply, idx39]
  exact gi_apply x0 x1 x2 x3 x4 x5 x6 x7 x8 wih bih hih hbi p (gate2 q)

theorem idx40 (p : Fin 50000) (q : Fin 128) : idx_main_v40 (ix2 p q) = ix2 p (gate0 q) :=
  funext fun a => Fin.ext (by match a with | ⟨0, _⟩ => rfl | ⟨1, _⟩ => rfl)

theorem gh0_apply (x0 : (⟨S50000x128, .f32⟩ : BufTy).Contents (Elt Ideal)) (x9 : (⟨S384x128, .f32⟩ : BufTy).Contents (Elt Ideal)) (x10 : (⟨S384, .f32⟩ : BufTy).Contents (Elt Ideal))
    (whh : Mat 128 384) (bhh : Mat 1 384)
    (hhh : ∀ (k : Fin 128) (c : Fin 384), whh (ix2 k c) = x9 (ix2 c k))
    (hbh : ∀ c : Fin 384, bhh (ix2 0 c) = x10 (ix1 c)) (p : Fin 50000) (q : Fin 128) :
    val_main_v40 (F := Ideal) x0 x9 x10 (ix2 p q)
      = gatePre (fun i => x0 (ix2 p i)) whh bhh (gate0 q) := by
  rw [val_main_v40_apply, idx40]
  exact gh_apply x0 x9 x10 whh bhh hhh hbh p (gate0 q)

theorem idx41 (p : Fin 50000) (q : Fin 128) : idx_main_v41 (ix2 p q) = ix2 p (gate1 q) :=
  funext fun a => Fin.ext (by match a with | ⟨0, _⟩ => rfl | ⟨1, _⟩ => rfl)

theorem gh1_apply (x0 : (⟨S50000x128, .f32⟩ : BufTy).Contents (Elt Ideal)) (x9 : (⟨S384x128, .f32⟩ : BufTy).Contents (Elt Ideal)) (x10 : (⟨S384, .f32⟩ : BufTy).Contents (Elt Ideal))
    (whh : Mat 128 384) (bhh : Mat 1 384)
    (hhh : ∀ (k : Fin 128) (c : Fin 384), whh (ix2 k c) = x9 (ix2 c k))
    (hbh : ∀ c : Fin 384, bhh (ix2 0 c) = x10 (ix1 c)) (p : Fin 50000) (q : Fin 128) :
    val_main_v41 (F := Ideal) x0 x9 x10 (ix2 p q)
      = gatePre (fun i => x0 (ix2 p i)) whh bhh (gate1 q) := by
  rw [val_main_v41_apply, idx41]
  exact gh_apply x0 x9 x10 whh bhh hhh hbh p (gate1 q)

theorem idx42 (p : Fin 50000) (q : Fin 128) : idx_main_v42 (ix2 p q) = ix2 p (gate2 q) :=
  funext fun a => Fin.ext (by match a with | ⟨0, _⟩ => rfl | ⟨1, _⟩ => rfl)

theorem gh2_apply (x0 : (⟨S50000x128, .f32⟩ : BufTy).Contents (Elt Ideal)) (x9 : (⟨S384x128, .f32⟩ : BufTy).Contents (Elt Ideal)) (x10 : (⟨S384, .f32⟩ : BufTy).Contents (Elt Ideal))
    (whh : Mat 128 384) (bhh : Mat 1 384)
    (hhh : ∀ (k : Fin 128) (c : Fin 384), whh (ix2 k c) = x9 (ix2 c k))
    (hbh : ∀ c : Fin 384, bhh (ix2 0 c) = x10 (ix1 c)) (p : Fin 50000) (q : Fin 128) :
    val_main_v42 (F := Ideal) x0 x9 x10 (ix2 p q)
      = gatePre (fun i => x0 (ix2 p i)) whh bhh (gate2 q) := by
  rw [val_main_v42_apply, idx42]
  exact gh_apply x0 x9 x10 whh bhh hhh hbh p (gate2 q)

/-! ## The cell -/

/-- The reference's result is the specification's node update of its own aggregated messages. -/
theorem ref_out (x0 : (⟨S50000x128, .f32⟩ : BufTy).Contents (Elt Ideal)) (x1 : (⟨S2x800000, .i32⟩ : BufTy).Contents (Elt Ideal)) (x2 : (⟨S800000x32, .f32⟩ : BufTy).Contents (Elt Ideal)) (x3 : (⟨S128x160, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S384x128, .f32⟩ : BufTy).Contents (Elt Ideal)) (x8 : (⟨S384, .f32⟩ : BufTy).Contents (Elt Ideal)) (x9 : (⟨S384x128, .f32⟩ : BufTy).Contents (Elt Ideal)) (x10 : (⟨S384, .f32⟩ : BufTy).Contents (Elt Ideal))
    (wih whh : Mat 128 384) (bih bhh : Mat 1 384)
    (hih : ∀ (k : Fin 128) (c : Fin 384), wih (ix2 k c) = x7 (ix2 c k))
    (hhh : ∀ (k : Fin 128) (c : Fin 384), whh (ix2 k c) = x9 (ix2 c k))
    (hbi : ∀ c : Fin 384, bih (ix2 0 c) = x8 (ix1 c))
    (hbh : ∀ c : Fin 384, bhh (ix2 0 c) = x10 (ix1 c)) :
    val_main_v64 (F := Ideal) x0 x1 x2 x3 x4 x5 x6 x7 x8 x9 x10
      = gruArr (val_main_v26 (F := Ideal) x0 x1 x2 x3 x4 x5 x6) x0 wih whh bih bhh := by
  funext j
  obtain ⟨p, q, rfl⟩ : ∃ p q, j = ix2 p q := ⟨j 0, j 1, eq_ix2 j⟩
  rw [val_main_v64_apply, val_main_v62_apply, val_main_v63_apply, val_main_v61_apply, val_main_v60_apply, val_main_cst_5_apply,
    val_main_v59_apply, val_main_v58_apply, val_main_v57_apply,
    val_main_v56_apply, val_main_v55_apply, val_main_cst_4_apply, val_main_v54_apply, val_main_v53_apply, val_main_cst_3_apply,
    val_main_v52_apply, val_main_v51_apply, val_main_v50_apply,
    val_main_v49_apply, val_main_v48_apply, val_main_cst_2_apply, val_main_v47_apply, val_main_v46_apply, val_main_cst_1_apply,
    val_main_v45_apply, val_main_v44_apply, val_main_v43_apply,
    gi0_apply x0 x1 x2 x3 x4 x5 x6 x7 x8 wih bih hih hbi, gi1_apply x0 x1 x2 x3 x4 x5 x6 x7 x8 wih bih hih hbi, gi2_apply x0 x1 x2 x3 x4 x5 x6 x7 x8 wih bih hih hbi,
    gh0_apply x0 x9 x10 whh bhh hhh hbh, gh1_apply x0 x9 x10 whh bhh hhh hbh, gh2_apply x0 x9 x10 whh bhh hhh hbh]
  unfold gruArr gruCell
  simp only [Ideal.addf_def, Ideal.mulf_def, Ideal.subf_def, Ideal.hostDivf_def, Ideal.hostUnary_exp_def, Ideal.hostUnary_tanh_def,
    Ideal.hostNegf_def, Ideal.negf_def, Ideal.ofBits_def, logistic_spelled]

end Cert.ReferenceIdeal.RefOut

end
-- ==== Proof.Bridge.lean ====
/-
  The kernel program's result is the reference program's result, as functions of the eleven arguments.

  The kernel program computes, in order: the gathered node rows (a host gather), the edge messages (first region),
  the aggregated messages (a host scatter-add of the messages into a zero array), and the new node states (second
  region). The reference computes the same four arrays with host operations only. Region by region the kernel's array
  is the specification's function of the arrays the region was entered with; operation by operation the reference's is
  the same function of the corresponding reference arrays. So it is enough that the arrays correspond:
  * the gathered rows: both programs apply the same gather to the node states and to the same index array (the source
    row of the edge list, with negative indices wrapped), so the two terms are one;
  * the messages: `msgArr` of corresponding arrays on both sides;
  * the aggregated messages: both programs scatter-add corresponding message arrays at the same index array (the
    destination row of the edge list) into the same zero array, so again the two terms are one;
  * the new node states: `gruArr` of corresponding arrays on both sides.
  The gather and the scatter-add are never evaluated.
-/
import proofs.«175639_j58634893525192_1_alg».proof.Proof.Entry
import proofs.«175639_j58634893525192_1_alg».proof.Proof.MsgKernel
import proofs.«175639_j58634893525192_1_alg».proof.Proof.GruKernel
import proofs.«175639_j58634893525192_1_alg».proof.Proof.Gen.ReferenceIdeal.Read
import proofs.«175639_j58634893525192_1_alg».proof.Proof.RefMsg
import proofs.«175639_j58634893525192_1_alg».proof.Proof.RefOut

set_option maxRecDepth 16384

noncomputable section

namespace Cert.KernelIdeal.Bridge

open Cert.KernelIdeal Cert.KernelIdeal.Gen Cert.KernelIdeal.Entry Idealize.ShloMosaic Idealize.ShloMosaic.TcCoe Idealize.ShloMosaic.StableHlo
open Idealize.SL.Sem Idealize.ShloMosaic.ValueIdx Cert.GnnSpec

variable (m : (ℓ : Loc nD τ sig) → Buf (Elt Ideal) ℓ) (ρ : Dev nD → PrngReg)

/-- The gathered node rows the first region is entered with are the reference's gathered rows. -/
theorem gather_eq (c : Dev nD) :
    V1 m ρ c main_v10 = Cert.ReferenceIdeal.Read.val_main_v10 (F := Ideal) (m ((c : Thread nD τ).loc main_arg0)) (m ((c : Thread nD τ).loc main_arg1)) := by
  show StableHlo.after hostOps0 (W0 m ρ c) (Proc.devRef .tc main_v10) = _
  after_results
  all_goals rfl

/-- The destination row of the edge list, as the second host stretch finds it, is the reference's. -/
theorem dst_eq (c : Dev nD) :
    W2 m ρ c (Proc.devRef .tc main_v3) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results
  all_goals rfl

/-- The message array the first region leaves is the reference's message array. -/
theorem msg_eq (c : Dev nD) :
    W2 m ρ c (Proc.devRef .tc main_v18) = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W2_arr m ρ c 7).trans ?_
  refine (MsgValue.final0 (V1 m ρ) c).trans ?_
  rw [gather_eq m ρ c, ea_entry m ρ c]
  exact (Cert.ReferenceIdeal.RefMsg.ref_msg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (V1 m ρ c main_v12) (V1 m ρ c main_v14) (V1 m ρ c main_v15) (V1 m ρ c main_v16) (V1 m ρ c main_v17)
    (w1a_entry m ρ c) (w1b_entry m ρ c) (w2_entry m ρ c) (b1_entry m ρ c) (b2_entry m ρ c)).symm

/-- The aggregated messages the second region is entered with are the reference's aggregated messages. -/
theorem agg_eq (c : Dev nD) :
    V3 m ρ c main_v21 = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v21) = _
  after_results
  rw [msg_eq m ρ c, dst_eq m ρ c]
  rfl

/-- The result array the kernel program ends with is the reference's result term of the same arguments. -/
theorem result_eq (c : Dev nD) :
    W4 m ρ c (Proc.devRef .tc main_v26) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ?_
  refine (GruValue.final1 (V3 m ρ) c).trans ?_
  rw [agg_eq m ρ c, x_entry m ρ c]
  exact (Cert.ReferenceIdeal.RefOut.ref_out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (V3 m ρ c main_v22) (V3 m ρ c main_v23) (V3 m ρ c main_v24) (V3 m ρ c main_v25)
    (wih_entry m ρ c) (whh_entry m ρ c) (bih_entry m ρ c) (bhh_entry m ρ c)).symm

end Cert.KernelIdeal.Bridge

end
-- ==== Proof.lean ====
/-
  The certificate: a graph-network layer — gather the source node's row for every edge, a two-layer perceptron on the
  gathered row joined with the edge's attributes, scatter-add of the messages per destination node, and a gated
  recurrent update of every node — computed by a program with two kernel regions (the per-edge perceptron and the
  per-node update; the gather and the scatter-add stay host operations) equals, over the extended reals, the same layer
  computed by host operations only.

  The three frames: the two kernel programs run, fault-free, with their arguments unchanged (the generated frames over the
  four segments of @main); the reference runs with its arguments unchanged (its generated run, the result dropped).
  The idealization rewrote nothing, so there is nothing to preserve.
  The equivalence: the kernel program's run ends with the result array at the contents the last segment boundary gives
  it (RunValue), and that array is the reference's result term of the same arguments (Bridge): region by region and
  operation by operation both are the layer of Spec.lean, whose only regrouping is the first contraction, taken over the
  160 joined features at once by the reference and over the 128 node features and the 32 attribute features separately
  by the kernel — one finite sum split in two, which needs no finiteness of the inputs.
-/
import proofs.«175639_j58634893525192_1_alg».proof.Defs
import proofs.«175639_j58634893525192_1_alg».proof.Proof.Gen.Kernel
import proofs.«175639_j58634893525192_1_alg».proof.Proof.Gen.Kernel.Skeleton
import proofs.«175639_j58634893525192_1_alg».proof.Proof.Gen.Kernel.Launch
import proofs.«175639_j58634893525192_1_alg».proof.Proof.Gen.Kernel.Points
import proofs.«175639_j58634893525192_1_alg».proof.Proof.Gen.Kernel.Frame
import proofs.«175639_j58634893525192_1_alg».proof.Proof.Gen.KernelIdeal
import proofs.«175639_j58634893525192_1_alg».proof.Proof.Gen.KernelIdeal.Skeleton
import proofs.«175639_j58634893525192_1_alg».proof.Proof.Gen.KernelIdeal.Launch
import proofs.«175639_j58634893525192_1_alg».proof.Proof.Gen.KernelIdeal.Points
import proofs.«175639_j58634893525192_1_alg».proof.Proof.Gen.KernelIdeal.Frame
import proofs.«175639_j58634893525192_1_alg».proof.Proof.Gen.ReferenceIdeal
import proofs.«175639_j58634893525192_1_alg».proof.Proof.Gen.Pre_finite_inputs
import proofs.«175639_j58634893525192_1_alg».proof.Proof.Gen.ReferenceIdeal.Run
import proofs.«175639_j58634893525192_1_alg».proof.Proof.Gen.ReferenceIdeal.Read
import proofs.«175639_j58634893525192_1_alg».proof.Proof.RunValue
import proofs.«175639_j58634893525192_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs with its arguments unchanged. -/
theorem frame_kernel : Cert.frame_Kernel := fun m ρ _ => Cert.Kernel.Gen.frame m ρ

/-- The idealized kernel program runs with its arguments unchanged. -/
theorem frame_kernelIdeal : Cert.frame_KernelIdeal := fun m ρ _ => Cert.KernelIdeal.Gen.frame m ρ

/-- The reference runs with its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with one result array: the kernel program's, which is the
    reference's result term of the same arguments. -/
theorem algebraic : Cert.algebraic_KernelIdeal_ReferenceIdeal := by
  intro m ρ m' ρ' _ hagree
  refine ⟨fun c => Cert.KernelIdeal.Gen.W4 (F := Ideal) m ρ c (Proc.devRef .tc Cert.KernelIdeal.main_v26),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v64_eq, e0, e1, e2, e3, e4, e5, e6, e7, e8, e9, e10]
  exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
